-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x1280 : Shape := ⟨4, ![8, 64, 64, 1280]⟩
abbrev S3840x1280 : Shape := ⟨2, ![3840, 1280]⟩
abbrev S3840 : Shape := ⟨1, ![3840]⟩
abbrev S16x1280 : Shape := ⟨2, ![16, 1280]⟩
abbrev S1280x16 : Shape := ⟨2, ![1280, 16]⟩
abbrev S_ : Shape := ⟨0, ![]⟩

class Facts : Prop where
  bcast_S_S8x64x64x1280 : S_.BroadcastsInDim S8x64x64x1280 (![] : Fin 0 → Fin S8x64x64x1280.rank)
  reducesTo_S8x64x64x1280_S_d0_1_2_3 : S8x64x64x1280.ReducesTo [0, 1, 2, 3] S_
  h_S_ : 0 < S_.numel
  bcast_S_S3840x1280 : S_.BroadcastsInDim S3840x1280 (![] : Fin 0 → Fin S3840x1280.rank)
  reducesTo_S3840x1280_S_d0_1 : S3840x1280.ReducesTo [0, 1] S_
  bcast_S_S3840 : S_.BroadcastsInDim S3840 (![] : Fin 0 → Fin S3840.rank)
  reducesTo_S3840_S_d0 : S3840.ReducesTo [0] S_
  bcast_S_S16x1280 : S_.BroadcastsInDim S16x1280 (![] : Fin 0 → Fin S16x1280.rank)
  reducesTo_S16x1280_S_d0_1 : S16x1280.ReducesTo [0, 1] S_
  bcast_S_S1280x16 : S_.BroadcastsInDim S1280x16 (![] : Fin 0 → Fin S1280x16.rank)
  reducesTo_S1280x16_S_d0_1 : S1280x16.ReducesTo [0, 1] S_

variable [Facts]

def fn_part2 {F : FTy → Type} [FloatOps F] (main_arg7 : FVec F S16x1280 .f32) (main_arg8 : FVec F S1280x16 .f32) (main_v33 : IVec S_ 1) : IVec S_ 1 :=
  let main_v34 : FVec F S16x1280 .f32 := Host.absf main_arg7
  let main_cst_12 : FVec F S_ .f32 := constant S_ .f32 0x7F800000#32
  let main_v35 : FVec F S16x1280 .f32 := broadcastInDim S16x1280 ![] bcast_S_S16x1280 main_cst_12
  let main_v36 : IVec S16x1280 1 := cmpf .olt main_v34 main_v35
  let main_c_13 : IVec S_ 1 := constantI S_ 1 1#1
  let main_v37 : IVec S_ 1 := (fun x v => Host.reduce IntOp.andi x v reducesTo_S16x1280_S_d0_1 h_S_) main_v36 main_c_13
  let main_v38 : IVec S_ 1 := andi main_v33 main_v37
  let main_v39 : FVec F S1280x16 .f32 := Host.absf main_arg8
  let main_cst_14 : FVec F S_ .f32 := constant S_ .f32 0x7F800000#32
  let main_v40 : FVec F S1280x16 .f32 := broadcastInDim S1280x16 ![] bcast_S_S1280x16 main_cst_14
  let main_v41 : IVec S1280x16 1 := cmpf .olt main_v39 main_v40
  let main_c_15 : IVec S_ 1 := constantI S_ 1 1#1
  let main_v42 : IVec S_ 1 := (fun x v => Host.reduce IntOp.andi x v reducesTo_S1280x16_S_d0_1 h_S_) main_v41 main_c_15
  let main_v43 : IVec S_ 1 := andi main_v38 main_v42
  main_v43

def fn_part1 {F : FTy → Type} [FloatOps F] (main_arg4 : FVec F S1280x16 .f32) (main_arg5 : FVec F S16x1280 .f32) (main_arg6 : FVec F S1280x16 .f32) (main_arg7 : FVec F S16x1280 .f32) (main_arg8 : FVec F S1280x16 .f32) (main_v13 : IVec S_ 1) (main_v16 : IVec S16x1280 1) : IVec S_ 1 :=
  let main_c_5 : IVec S_ 1 := constantI S_ 1 1#1
  let main_v17 : IVec S_ 1 := (fun x v => Host.reduce IntOp.andi x v reducesTo_S16x1280_S_d0_1 h_S_) main_v16 main_c_5
  let main_v18 : IVec S_ 1 := andi main_v13 main_v17
  let main_v19 : FVec F S1280x16 .f32 := Host.absf main_arg4
  let main_cst_6 : FVec F S_ .f32 := constant S_ .f32 0x7F800000#32
  let main_v20 : FVec F S1280x16 .f32 := broadcastInDim S1280x16 ![] bcast_S_S1280x16 main_cst_6
  let main_v21 : IVec S1280x16 1 := cmpf .olt main_v19 main_v20
  let main_c_7 : IVec S_ 1 := constantI S_ 1 1#1
  let main_v22 : IVec S_ 1 := (fun x v => Host.reduce IntOp.andi x v reducesTo_S1280x16_S_d0_1 h_S_) main_v21 main_c_7
  let main_v23 : IVec S_ 1 := andi main_v18 main_v22
  let main_v24 : FVec F S16x1280 .f32 := Host.absf main_arg5
  let main_cst_8 : FVec F S_ .f32 := constant S_ .f32 0x7F800000#32
  let main_v25 : FVec F S16x1280 .f32 := broadcastInDim S16x1280 ![] bcast_S_S16x1280 main_cst_8
  let main_v26 : IVec S16x1280 1 := cmpf .olt main_v24 main_v25
  let main_c_9 : IVec S_ 1 := constantI S_ 1 1#1
  let main_v27 : IVec S_ 1 := (fun x v => Host.reduce IntOp.andi x v reducesTo_S16x1280_S_d0_1 h_S_) main_v26 main_c_9
  let main_v28 : IVec S_ 1 := andi main_v23 main_v27
  let main_v29 : FVec F S1280x16 .f32 := Host.absf main_arg6
  let main_cst_10 : FVec F S_ .f32 := constant S_ .f32 0x7F800000#32
  let main_v30 : FVec F S1280x16 .f32 := broadcastInDim S1280x16 ![] bcast_S_S1280x16 main_cst_10
  let main_v31 : IVec S1280x16 1 := cmpf .olt main_v29 main_v30
  let main_c_11 : IVec S_ 1 := constantI S_ 1 1#1
  let main_v32 : IVec S_ 1 := (fun x v => Host.reduce IntOp.andi x v reducesTo_S1280x16_S_d0_1 h_S_) main_v31 main_c_11
  let main_v33 : IVec S_ 1 := andi main_v28 main_v32
  fn_part2 (F := F) main_arg7 main_arg8 main_v33

def fn {F : FTy → Type} [FloatOps F] (main_arg0 : FVec F S8x64x64x1280 .f32) (main_arg1 : FVec F S3840x1280 .f32) (main_arg2 : FVec F S3840 .f32) (main_arg3 : FVec F S16x1280 .f32) (main_arg4 : FVec F S1280x16 .f32) (main_arg5 : FVec F S16x1280 .f32) (main_arg6 : FVec F S1280x16 .f32) (main_arg7 : FVec F S16x1280 .f32) (main_arg8 : FVec F S1280x16 .f32) : IVec S_ 1 :=
  let main_v0 : FVec F S8x64x64x1280 .f32 := Host.absf main_arg0
  let main_cst : FVec F S_ .f32 := constant S_ .f32 0x7F800000#32
  let main_v1 : FVec F S8x64x64x1280 .f32 := broadcastInDim S8x64x64x1280 ![] bcast_S_S8x64x64x1280 main_cst
  let main_v2 : IVec S8x64x64x1280 1 := cmpf .olt main_v0 main_v1
  let main_c : IVec S_ 1 := constantI S_ 1 1#1
  let main_v3 : IVec S_ 1 := (fun x v => Host.reduce IntOp.andi x v reducesTo_S8x64x64x1280_S_d0_1_2_3 h_S_) main_v2 main_c
  let main_v4 : FVec F S3840x1280 .f32 := Host.absf main_arg1
  let main_cst_0 : FVec F S_ .f32 := constant S_ .f32 0x7F800000#32
  let main_v5 : FVec F S3840x1280 .f32 := broadcastInDim S3840x1280 ![] bcast_S_S3840x1280 main_cst_0
  let main_v6 : IVec S3840x1280 1 := cmpf .olt main_v4 main_v5
  let main_c_1 : IVec S_ 1 := constantI S_ 1 1#1
  let main_v7 : IVec S_ 1 := (fun x v => Host.reduce IntOp.andi x v reducesTo_S3840x1280_S_d0_1 h_S_) main_v6 main_c_1
  let main_v8 : IVec S_ 1 := andi main_v3 main_v7
  let main_v9 : FVec F S3840 .f32 := Host.absf main_arg2
  let main_cst_2 : FVec F S_ .f32 := constant S_ .f32 0x7F800000#32
  let main_v10 : FVec F S3840 .f32 := broadcastInDim S3840 ![] bcast_S_S3840 main_cst_2
  let main_v11 : IVec S3840 1 := cmpf .olt main_v9 main_v10
  let main_c_3 : IVec S_ 1 := constantI S_ 1 1#1
  let main_v12 : IVec S_ 1 := (fun x v => Host.reduce IntOp.andi x v reducesTo_S3840_S_d0 h_S_) main_v11 main_c_3
  let main_v13 : IVec S_ 1 := andi main_v8 main_v12
  let main_v14 : FVec F S16x1280 .f32 := Host.absf main_arg3
  let main_cst_4 : FVec F S_ .f32 := constant S_ .f32 0x7F800000#32
  let main_v15 : FVec F S16x1280 .f32 := broadcastInDim S16x1280 ![] bcast_S_S16x1280 main_cst_4
  let main_v16 : IVec S16x1280 1 := cmpf .olt main_v14 main_v15
  fn_part1 (F := F) main_arg4 main_arg5 main_arg6 main_arg7 main_arg8 main_v13 main_v16
-- ==== Kernel.lean ====
abbrev S8x64x64x1280 : Shape := ⟨4, ![8, 64, 64, 1280]⟩
abbrev S3840x1280 : Shape := ⟨2, ![3840, 1280]⟩
abbrev S3840 : Shape := ⟨1, ![3840]⟩
abbrev S16x1280 : Shape := ⟨2, ![16, 1280]⟩
abbrev S1280x16 : Shape := ⟨2, ![1280, 16]⟩
abbrev S32768x1280 : Shape := ⟨2, ![32768, 1280]⟩
abbrev S1280x3840 : Shape := ⟨2, ![1280, 3840]⟩
abbrev S1x3840 : Shape := ⟨2, ![1, 3840]⟩
abbrev S32768x3840 : Shape := ⟨2, ![32768, 3840]⟩
abbrev S256x1280 : Shape := ⟨2, ![256, 1280]⟩
abbrev S256x3840 : Shape := ⟨2, ![256, 3840]⟩
abbrev S256x16 : Shape := ⟨2, ![256, 16]⟩
abbrev S8x64x64x3840 : Shape := ⟨4, ![8, 64, 64, 3840]⟩

abbrev nBuf : Space → Nat
  | .hbm => 27
  | .vmem => 12
  | .smem => 0
  | _ => 0

abbrev bufTy : (tb : Table) → Fin (tcTables nBuf tb) → BufTy
  | .hbm, ⟨0, _⟩ => ⟨S8x64x64x1280, .f32⟩
  | .hbm, ⟨1, _⟩ => ⟨S3840x1280, .f32⟩
  | .hbm, ⟨2, _⟩ => ⟨S3840, .f32⟩
  | .hbm, ⟨3, _⟩ => ⟨S16x1280, .f32⟩
  | .hbm, ⟨4, _⟩ => ⟨S1280x16, .f32⟩
  | .hbm, ⟨5, _⟩ => ⟨S16x1280, .f32⟩
  | .hbm, ⟨6, _⟩ => ⟨S1280x16, .f32⟩
  | .hbm, ⟨7, _⟩ => ⟨S16x1280, .f32⟩
  | .hbm, ⟨8, _⟩ => ⟨S1280x16, .f32⟩
  | .hbm, ⟨9, _⟩ => ⟨S32768x1280, .f32⟩
  | .hbm, ⟨10, _⟩ => ⟨S1280x3840, .f32⟩
  | .hbm, ⟨11, _⟩ => ⟨S1280x3840, .bf16⟩
  | .hbm, ⟨12, _⟩ => ⟨S1x3840, .f32⟩
  | .hbm, ⟨13, _⟩ => ⟨S1280x16, .f32⟩
  | .hbm, ⟨14, _⟩ => ⟨S1280x16, .bf16⟩
  | .hbm, ⟨15, _⟩ => ⟨S16x1280, .f32⟩
  | .hbm, ⟨16, _⟩ => ⟨S16x1280, .bf16⟩
  | .hbm, ⟨17, _⟩ => ⟨S1280x16, .f32⟩
  | .hbm, ⟨18, _⟩ => ⟨S1280x16, .bf16⟩
  | .hbm, ⟨19, _⟩ => ⟨S16x1280, .f32⟩
  | .hbm, ⟨20, _⟩ => ⟨S16x1280, .bf16⟩
  | .hbm, ⟨21, _⟩ => ⟨S1280x16, .f32⟩
  | .hbm, ⟨22, _⟩ => ⟨S1280x16, .bf16⟩
  | .hbm, ⟨23, _⟩ => ⟨S16x1280, .f32⟩
  | .hbm, ⟨24, _⟩ => ⟨S16x1280, .bf16⟩
  | .hbm, ⟨25, _⟩ => ⟨S32768x3840, .f32⟩
  | .hbm, ⟨26, _⟩ => ⟨S8x64x64x3840, .f32⟩
  | .local _ .vmem, ⟨0, _⟩ => ⟨S256x1280, .f32⟩
  | .local _ .vmem, ⟨1, _⟩ => ⟨S256x1280, .f32⟩
  | .local _ .vmem, ⟨2, _⟩ => ⟨S1280x3840, .bf16⟩
  | .local _ .vmem, ⟨3, _⟩ => ⟨S1x3840, .f32⟩
  | .local _ .vmem, ⟨4, _⟩ => ⟨S1280x16, .bf16⟩
  | .local _ .vmem, ⟨5, _⟩ => ⟨S16x1280, .bf16⟩
  | .local _ .vmem, ⟨6, _⟩ => ⟨S1280x16, .bf16⟩
  | .local _ .vmem, ⟨7, _⟩ => ⟨S16x1280, .bf16⟩
  | .local _ .vmem, ⟨8, _⟩ => ⟨S1280x16, .bf16⟩
  | .local _ .vmem, ⟨9, _⟩ => ⟨S16x1280, .bf16⟩
  | .local _ .vmem, ⟨10, _⟩ => ⟨S256x3840, .f32⟩
  | .local _ .vmem, ⟨11, _⟩ => ⟨S256x3840, .f32⟩
  | _, _ => ⟨S8x64x64x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3840 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x64x64x1280_S32768x1280 : S8x64x64x1280.ShapeCasts S32768x1280
  transposes_S3840x1280_S1280x3840_1_0 : S3840x1280.Transposes [1, 0] S1280x3840
  bitsLt_bf16_f32 : FTy.bits .bf16 < FTy.bits .f32
  shapeCasts_S3840_S1x3840 : S3840.ShapeCasts S1x3840
  transposes_S16x1280_S1280x16_1_0 : S16x1280.Transposes [1, 0] S1280x16
  transposes_S1280x16_S16x1280_1_0 : S1280x16.Transposes [1, 0] S16x1280
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  inb_S1280x3840_S1280x3840_0_0 : ∀ a, (![0, 0] : Fin 2 → Nat) a + S1280x3840.size a ≤ S1280x3840.size a
  h_S1280x3840 : 0 < S1280x3840.numel
  shapeCasts_S1280x3840_S1280x3840 : S1280x3840.ShapeCasts S1280x3840
  inb_S1x3840_S1x3840_0_0 : ∀ a, (![0, 0] : Fin 2 → Nat) a + S1x3840.size a ≤ S1x3840.size a
  h_S1x3840 : 0 < S1x3840.numel
  shapeCasts_S1x3840_S1x3840 : S1x3840.ShapeCasts S1x3840
  broadcasts_S1x3840_S256x3840 : S1x3840.Broadcasts S256x3840
  inb_S256x3840_S256x3840_0_0 : ∀ a, (![0, 0] : Fin 2 → Nat) a + S256x3840.size a ≤ S256x3840.size a
  h_S256x3840 : 0 < S256x3840.numel
  inb_S1280x16_S1280x16_0_0 : ∀ a, (![0, 0] : Fin 2 → Nat) a + S1280x16.size a ≤ S1280x16.size a
  h_S1280x16 : 0 < S1280x16.numel
  shapeCasts_S1280x16_S1280x16 : S1280x16.ShapeCasts S1280x16
  inb_S16x1280_S16x1280_0_0 : ∀ a, (![0, 0] : Fin 2 → Nat) a + S16x1280.size a ≤ S16x1280.size a
  h_S16x1280 : 0 < S16x1280.numel
  shapeCasts_S16x1280_S16x1280 : S16x1280.ShapeCasts S16x1280
  inb_S256x3840_S256x1280_0_0 : ∀ a, (![0, 0] : Fin 2 → Nat) a + S256x1280.size a ≤ S256x3840.size a
  inb_S256x3840_S256x1280_0_1280 : ∀ a, (![0, 1280] : Fin 2 → Nat) a + S256x1280.size a ≤ S256x3840.size a
  inb_S256x3840_S256x1280_0_2560 : ∀ a, (![0, 2560] : Fin 2 → Nat) a + S256x1280.size a ≤ S256x3840.size a
  shapeCasts_S32768x3840_S8x64x64x3840 : S32768x3840.ShapeCasts S8x64x64x3840
  dot_S256x1280_S1280x3840_S256x3840_1_0_0_1_n_n_wf : DotDims.WF S256x1280 S1280x3840 S256x3840 [1] [0] [0] [1] [] []
  dot_S256x1280_S1280x16_S256x16_1_0_0_1_n_n_wf : DotDims.WF S256x1280 S1280x16 S256x16 [1] [0] [0] [1] [] []
  dot_S256x16_S16x1280_S256x1280_1_0_0_1_n_n_wf : DotDims.WF S256x16 S16x1280 S256x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1280.size a ≤ S32768x1280.size a
  hwx0_0 : ∀ i : grid0.Coords, EltTy.bits .f32 = 32 ∨ (Rect.block (s := S32768x1280) S256x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x3840.size a ≤ S1280x3840.size a
  hwx0_1 : ∀ i : grid0.Coords, EltTy.bits .bf16 = 32 ∨ (Rect.block (s := S1280x3840) S1280x3840.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3840.size a ≤ S1x3840.size a
  hwx0_2 : ∀ i : grid0.Coords, EltTy.bits .f32 = 32 ∨ (Rect.block (s := S1x3840) S1x3840.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x16.size a ≤ S1280x16.size a
  hwx0_3 : ∀ i : grid0.Coords, EltTy.bits .bf16 = 32 ∨ (Rect.block (s := S1280x16) S1280x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1280.size a ≤ S16x1280.size a
  hwx0_4 : ∀ i : grid0.Coords, EltTy.bits .bf16 = 32 ∨ (Rect.block (s := S16x1280) S16x1280.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1280x16.size a ≤ S1280x16.size a
  hwx0_5 : ∀ i : grid0.Coords, EltTy.bits .bf16 = 32 ∨ (Rect.block (s := S1280x16) S1280x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1280.size a ≤ S16x1280.size a
  hwx0_6 : ∀ i : grid0.Coords, EltTy.bits .bf16 = 32 ∨ (Rect.block (s := S16x1280) S16x1280.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1280x16.size a ≤ S1280x16.size a
  hwx0_7 : ∀ i : grid0.Coords, EltTy.bits .bf16 = 32 ∨ (Rect.block (s := S1280x16) S1280x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1280.size a ≤ S16x1280.size a
  hwx0_8 : ∀ i : grid0.Coords, EltTy.bits .bf16 = 32 ∨ (Rect.block (s := S16x1280) S16x1280.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x3840.size a ≤ S32768x3840.size a
  hwx0_9 : ∀ i : grid0.Coords, EltTy.bits .f32 = 32 ∨ (Rect.block (s := S32768x3840) S256x3840.size (cc0_transform_9 i) (hinb0_9 i)).WholeWords (EltTy.packing .f32)

variable [Facts₀]

def dot_S256x1280_S1280x3840_S256x3840_1_0_0_1_n_n : DotDims S256x1280 S1280x3840 S256x3840 where
  lhsContracting := [1]
  rhsContracting := [0]
  lhsNonContracting := [0]
  rhsNonContracting := [1]
  lhsBatch := []
  rhsBatch := []
  wf := dot_S256x1280_S1280x3840_S256x3840_1_0_0_1_n_n_wf
def dot_S256x1280_S1280x16_S256x16_1_0_0_1_n_n : DotDims S256x1280 S1280x16 S256x16 where
  lhsContracting := [1]
  rhsContracting := [0]
  lhsNonContracting := [0]
  rhsNonContracting := [1]
  lhsBatch := []
  rhsBatch := []
  wf := dot_S256x1280_S1280x16_S256x16_1_0_0_1_n_n_wf
def dot_S256x16_S16x1280_S256x1280_1_0_0_1_n_n : DotDims S256x16 S16x1280 S256x1280 where
  lhsContracting := [1]
  rhsContracting := [0]
  lhsNonContracting := [0]
  rhsNonContracting := [1]
  lhsBatch := []
  rhsBatch := []
  wf := dot_S256x16_S16x1280_S256x1280_1_0_0_1_n_n_wf

abbrev win0_0 : Pipeline.Window sig grid0 :=
  Pipeline.Window.ofSpec (Memref.whole main_v0) S256x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x3840.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3840.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1280x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1280x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S16x1280.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1280x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S16x1280.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S256x3840.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x64x64x1280 : Shape := ⟨4, ![8, 64, 64, 1280]⟩
abbrev S3840x1280 : Shape := ⟨2, ![3840, 1280]⟩
abbrev S3840 : Shape := ⟨1, ![3840]⟩
abbrev S16x1280 : Shape := ⟨2, ![16, 1280]⟩
abbrev S1280x16 : Shape := ⟨2, ![1280, 16]⟩
abbrev S8x64x64x3840 : Shape := ⟨4, ![8, 64, 64, 3840]⟩
abbrev S1x1x1x3840 : Shape := ⟨4, ![1, 1, 1, 3840]⟩
abbrev S8x64x64x16 : Shape := ⟨4, ![8, 64, 64, 16]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8x64x64x1280, .f32⟩
  | .hbm, ⟨1, _⟩ => ⟨S3840x1280, .f32⟩
  | .hbm, ⟨2, _⟩ => ⟨S3840, .f32⟩
  | .hbm, ⟨3, _⟩ => ⟨S16x1280, .f32⟩
  | .hbm, ⟨4, _⟩ => ⟨S1280x16, .f32⟩
  | .hbm, ⟨5, _⟩ => ⟨S16x1280, .f32⟩
  | .hbm, ⟨6, _⟩ => ⟨S1280x16, .f32⟩
  | .hbm, ⟨7, _⟩ => ⟨S16x1280, .f32⟩
  | .hbm, ⟨8, _⟩ => ⟨S1280x16, .f32⟩
  | .hbm, ⟨9, _⟩ => ⟨S8x64x64x3840, .f32⟩
  | .hbm, ⟨10, _⟩ => ⟨S1x1x1x3840, .f32⟩
  | .hbm, ⟨11, _⟩ => ⟨S8x64x64x3840, .f32⟩
  | .hbm, ⟨12, _⟩ => ⟨S8x64x64x3840, .f32⟩
  | .hbm, ⟨13, _⟩ => ⟨S8x64x64x1280, .f32⟩
  | .hbm, ⟨14, _⟩ => ⟨S8x64x64x16, .f32⟩
  | .hbm, ⟨15, _⟩ => ⟨S8x64x64x1280, .f32⟩
  | .hbm, ⟨16, _⟩ => ⟨S_, .f32⟩
  | .hbm, ⟨17, _⟩ => ⟨S8x64x64x1280, .f32⟩
  | .hbm, ⟨18, _⟩ => ⟨S8x64x64x1280, .f32⟩
  | .hbm, ⟨19, _⟩ => ⟨S8x64x64x1280, .f32⟩
  | .hbm, ⟨20, _⟩ => ⟨S8x64x64x1280, .f32⟩
  | .hbm, ⟨21, _⟩ => ⟨S8x64x64x16, .f32⟩
  | .hbm, ⟨22, _⟩ => ⟨S8x64x64x1280, .f32⟩
  | .hbm, ⟨23, _⟩ => ⟨S_, .f32⟩
  | .hbm, ⟨24, _⟩ => ⟨S8x64x64x1280, .f32⟩
  | .hbm, ⟨25, _⟩ => ⟨S8x64x64x1280, .f32⟩
  | .hbm, ⟨26, _⟩ => ⟨S8x64x64x1280, .f32⟩
  | .hbm, ⟨27, _⟩ => ⟨S8x64x64x1280, .f32⟩
  | .hbm, ⟨28, _⟩ => ⟨S8x64x64x16, .f32⟩
  | .hbm, ⟨29, _⟩ => ⟨S8x64x64x1280, .f32⟩
  | .hbm, ⟨30, _⟩ => ⟨S_, .f32⟩
  | .hbm, ⟨31, _⟩ => ⟨S8x64x64x1280, .f32⟩
  | .hbm, ⟨32, _⟩ => ⟨S8x64x64x1280, .f32⟩
  | .hbm, ⟨33, _⟩ => ⟨S8x64x64x1280, .f32⟩
  | .hbm, ⟨34, _⟩ => ⟨S8x64x64x3840, .f32⟩
  | _, _ => ⟨S8x64x64x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S3840_S1x1x1x3840_3 : S3840.BroadcastsInDim S1x1x1x3840 (![3] : Fin 1 → Fin S1x1x1x3840.rank)
  bcast_S1x1x1x3840_S8x64x64x3840_0_1_2_3 : S1x1x1x3840.BroadcastsInDim S8x64x64x3840 (![0, 1, 2, 3] : Fin 4 → Fin S8x64x64x3840.rank)
  slices_S8x64x64x3840_S8x64x64x1280_0_0_0_0 : S8x64x64x3840.Slices ![0, 0, 0, 0] S8x64x64x1280
  bcast_S_S8x64x64x1280 : S_.BroadcastsInDim S8x64x64x1280 (![] : Fin 0 → Fin S8x64x64x1280.rank)
  slices_S8x64x64x3840_S8x64x64x1280_0_0_0_1280 : S8x64x64x3840.Slices ![0, 0, 0, 1280] S8x64x64x1280
  slices_S8x64x64x3840_S8x64x64x1280_0_0_0_2560 : S8x64x64x3840.Slices ![0, 0, 0, 2560] S8x64x64x1280
  concatenates_S8x64x64x1280_S8x64x64x1280_S8x64x64x1280_S8x64x64x3840_d3 : Shape.Concatenates [S8x64x64x1280, S8x64x64x1280, S8x64x64x1280] S8x64x64x3840 3
  dot_S8x64x64x1280_S3840x1280_S8x64x64x3840_3_1_012_0_n_n_wf : DotDims.WF S8x64x64x1280 S3840x1280 S8x64x64x3840 [3] [1] [0, 1, 2] [0] [] []
  dot_S8x64x64x1280_S16x1280_S8x64x64x16_3_1_012_0_n_n_wf : DotDims.WF S8x64x64x1280 S16x1280 S8x64x64x16 [3] [1] [0, 1, 2] [0] [] []
  dot_S8x64x64x16_S1280x16_S8x64x64x1280_3_1_012_0_n_n_wf : DotDims.WF S8x64x64x16 S1280x16 S8x64x64x1280 [3] [1] [0, 1, 2] [0] [] []

variable [Facts₀]

def dot_S8x64x64x1280_S3840x1280_S8x64x64x3840_3_1_012_0_n_n : DotDims S8x64x64x1280 S3840x1280 S8x64x64x3840 where
  lhsContracting := [3]
  rhsContracting := [1]
  lhsNonContracting := [0, 1, 2]
  rhsNonContracting := [0]
  lhsBatch := []
  rhsBatch := []
  wf := dot_S8x64x64x1280_S3840x1280_S8x64x64x3840_3_1_012_0_n_n_wf
def dot_S8x64x64x1280_S16x1280_S8x64x64x16_3_1_012_0_n_n : DotDims S8x64x64x1280 S16x1280 S8x64x64x16 where
  lhsContracting := [3]
  rhsContracting := [1]
  lhsNonContracting := [0, 1, 2]
  rhsNonContracting := [0]
  lhsBatch := []
  rhsBatch := []
  wf := dot_S8x64x64x1280_S16x1280_S8x64x64x16_3_1_012_0_n_n_wf
def dot_S8x64x64x16_S1280x16_S8x64x64x1280_3_1_012_0_n_n : DotDims S8x64x64x16 S1280x16 S8x64x64x1280 where
  lhsContracting := [3]
  rhsContracting := [1]
  lhsNonContracting := [0, 1, 2]
  rhsNonContracting := [0]
  lhsBatch := []
  rhsBatch := []
  wf := dot_S8x64x64x16_S1280x16_S8x64x64x1280_3_1_012_0_n_n_wf

class Facts : Prop extends Facts₀ where

variable [Facts]
-- ==== Proof.Spec.lean ====
/-
  The entry both programs compute, as plain sums over the extended reals.

  One output row is the frozen projection of an input row plus one low-rank correction per 1280-wide output chunk:
  for an input row `x` (1280 numbers), a weight row `w` and a bias `b`, the projection is `(∑ k, x k * w k) + b`; for
  the chunk's down-projection `a` (16 rows of 1280) and one row `u` of its up-projection (16 numbers) the correction is
  `(∑ r, (∑ k, x k * a r k) * u r) * 1`, the trailing factor being the scaling alpha / rank = 1 that both programs
  multiply by as the float literal one. Nothing here needs a law beyond reading both programs at one entry: the sums
  are taken in the same order with the same factors on the same sides.
-/
import Idealize.ShloMosaic.PureOps.Ideal.Laws
import Idealize.ShloMosaic.Lib.ValueIdx

noncomputable section

open scoped BigOperators
open Idealize.ShloMosaic Idealize.ShloMosaic.ValueIdx

namespace Cert.LoraQkv

/-- The scaling literal: the float one, as the word both programs print. -/
abbrev scale : EReal := Ideal.ofBits .f32 0x3F800000#32

/-- The frozen projection of a row: its product with a weight row, plus the bias. -/
def proj (x w : Fin 1280 → EReal) (b : EReal) : EReal := (∑ k : Fin 1280, x k * w k) + b

/-- The low-rank correction of a row: down to 16 numbers through `a`, up through the row `u`, times the scaling. -/
def adapt (x : Fin 1280 → EReal) (a : Fin 16 → Fin 1280 → EReal) (u : Fin 16 → EReal) : EReal :=
  (∑ r : Fin 16, (∑ k : Fin 1280, x k * a r k) * u r) * scale

/-- One entry of the result. -/
def entry (x w : Fin 1280 → EReal) (b : EReal) (a : Fin 16 → Fin 1280 → EReal) (u : Fin 16 → EReal) : EReal :=
  proj x w b + adapt x a u

end Cert.LoraQkv

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.KernelBlock.lean ====
/-
  What one grid point leaves in the output block, as a list of stores read back.

  The kernel body fills its 256 x 3840 output block in four stores: first the whole block with the frozen projection
  (the row block of x times the transposed weight, plus the bias row); then, chunk by chunk, the 1280-wide column
  ranges at 0, 1280 and 2560, each with what it has just loaded from that range plus the chunk's low-rank correction.
  Each of those loads reads the block after the stores made so far; the chunk stores made before it lie in other
  column ranges, so the load reads the first store's values on its own range.
-/
import proofs.«111045_j25013889532113_1_alg».proof.Proof.Gen.KernelIdeal.Frame
import Idealize.ShloMosaic.Lib.Pipeline.Value
import Idealize.ShloMosaic.Lib.Tactic
import proofs.«111045_j25013889532113_1_alg».proof.Proof.Spec
import proofs.«111045_j25013889532113_1_alg».proof.Proof.LibPlainMatmul

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

theorem hz : (![0, 0] : Fin 2 → Nat) = fun _ => 0 := funext fun a => by fin_cases a <;> rfl

/-- The whole output block, and its three column ranges. -/
abbrev rAll : Rect S256x3840 := Rect.unit (s := S256x3840) ![0, 0] S256x3840.size inb_S256x3840_S256x3840_0_0
abbrev rQ : Rect S256x3840 := Rect.unit (s := S256x3840) ![0, 0] S256x1280.size inb_S256x3840_S256x1280_0_0
abbrev rK : Rect S256x3840 := Rect.unit (s := S256x3840) ![0, 1280] S256x1280.size inb_S256x3840_S256x1280_0_1280
abbrev rV : Rect S256x3840 := Rect.unit (s := S256x3840) ![0, 2560] S256x1280.size inb_S256x3840_S256x1280_0_2560

theorem disj_QK : Disjoint rQ.set rK.toLoadRect.set := Rect.unit_disjoint 1 (Or.inl (by decide))
theorem disj_QV : Disjoint rQ.set rV.toLoadRect.set := Rect.unit_disjoint 1 (Or.inl (by decide))
theorem disj_KV : Disjoint rK.set rV.toLoadRect.set := Rect.unit_disjoint 1 (Or.inl (by decide))

/-- A load after ONE store of the whole block reads that store's values on the load's box. -/
theorem readCov_all {sig : RefSig} {κ : Kind} {sp : Space} (v : View sig κ sp S256x3840 .f32)
    (w : S256x3840.Idx → Elt F .f32) (B : LoadRect S256x3840) :
    v.readCov [(⟨rAll, w⟩ : View.Piece (Elt F) S256x3840 .f32)] B = fun j => w (B.idx j) := by
  rw [View.readCov_eq_canon', View.canon_unit_zero hz]

/-- The four stores, last first, over a point's input blocks `x0` … `x8`, read back as one block: each chunk store's
    payload is over what its load read, the first store's values on the chunk's column range. -/
abbrev blockOf (x0 : Vec F S256x1280 .f32) (x1 : Vec F S1280x3840 .bf16) (x2 : Vec F S1x3840 .f32) (x3 : Vec F S1280x16 .bf16) (x4 : Vec F S16x1280 .bf16) (x5 : Vec F S1280x16 .bf16) (x6 : Vec F S16x1280 .bf16) (x7 : Vec F S1280x16 .bf16) (x8 : Vec F S16x1280 .bf16) :
    S256x3840.Idx → Elt F .f32 :=
  View.canon (Val := Elt F)
    [⟨rV, k0_pay2 (k0_pay3 x0) x7 x8 (fun j => k0_pay4 x0 x1 x2 (rV.idx j))⟩,
     ⟨rK, k0_pay1 (k0_pay6 x0 x5 x6) (fun j => k0_pay4 x0 x1 x2 (rK.idx j))⟩,
     ⟨rQ, k0_pay5 x0 x3 x4 (fun j => k0_pay4 x0 x1 x2 (rQ.idx j))⟩,
     ⟨rAll, k0_pay4 x0 x1 x2⟩]

/-- The block a grid point leaves is that list read back. -/
theorem block_eq (c : Dev nD) (i : grid0.Coords) (a1 : Memref sig .tc .vmem S256x1280 .f32) (h1 : a1.IsWhole) (a2 : Memref sig .tc .vmem S1280x3840 .bf16) (h2 : a2.IsWhole) (a3 : Memref sig .tc .vmem S1x3840 .f32) (h3 : a3.IsWhole) (a4 : Memref sig .tc .vmem S1280x16 .bf16) (h4 : a4.IsWhole) (a5 : Memref sig .tc .vmem S16x1280 .bf16) (h5 : a5.IsWhole) (a6 : Memref sig .tc .vmem S1280x16 .bf16) (h6 : a6.IsWhole) (a7 : Memref sig .tc .vmem S16x1280 .bf16) (h7 : a7.IsWhole) (a8 : Memref sig .tc .vmem S1280x16 .bf16) (h8 : a8.IsWhole) (a9 : Memref sig .tc .vmem S16x1280 .bf16) (h9 : a9.IsWhole) (a10 : Memref sig .tc .vmem S256x3840 .f32) (h10 : a10.IsWhole)
    (x0 : Vec F S256x1280 .f32) (x1 : Vec F S1280x3840 .bf16) (x2 : Vec F S1x3840 .f32) (x3 : Vec F S1280x16 .bf16) (x4 : Vec F S16x1280 .bf16) (x5 : Vec F S1280x16 .bf16) (x6 : Vec F S16x1280 .bf16) (x7 : Vec F S1280x16 .bf16) (x8 : Vec F S16x1280 .bf16) :
    out0_A_9 c i a1 h1 a2 h2 a3 h3 a4 h4 a5 h5 a6 h6 a7 h7 a8 h8 a9 h9 a10 h10 x0 x1 x2 x3 x4 x5 x6 x7 x8
      = blockOf x0 x1 x2 x3 x4 x5 x6 x7 x8 := by
  unfold out0_A_9
  rw [View.read_writes_junk_eq_canon]
  unfold kernelRun0_A
  dsimp only
  sl_unfold_run_names
  simp only [View.readAt_eq_ld, h1.read_unread, h2.read_unread, h3.read_unread, h4.read_unread, h5.read_unread,
    h6.read_unread, h7.read_unread, h8.read_unread, h9.read_unread,
    View.ld_unit_zero (S := S256x1280) hz, View.ld_unit_zero (S := S1280x3840) hz, View.ld_unit_zero (S := S1x3840) hz,
    View.ld_unit_zero (S := S1280x16) hz, View.ld_unit_zero (S := S16x1280) hz]
  rw [View.readCov_cons_of_disjoint a10.view (⟨rK, _⟩ : View.Piece (Elt F) S256x3840 .f32) _ rV.toLoadRect disj_KV,
    View.readCov_cons_of_disjoint a10.view (⟨rQ, _⟩ : View.Piece (Elt F) S256x3840 .f32) _ rV.toLoadRect disj_QV,
    View.readCov_cons_of_disjoint a10.view (⟨rQ, _⟩ : View.Piece (Elt F) S256x3840 .f32) _ rK.toLoadRect disj_QK]
  rw [readCov_all a10.view _ rV.toLoadRect, readCov_all a10.view _ rK.toLoadRect, readCov_all a10.view _ rQ.toLoadRect]
  rfl

/-! ## The block at one entry, over the extended reals -/

section AtIdeal

open Cert.LoraQkv Idealize.ShloMosaic.ValueIdx Cert.Lib

/-- The row block of x as the matrix unit sees it: a same-shape cast and a change of float format, both the identity. -/
theorem row_apply (x0 : Vec Ideal S256x1280 .f32) (p : Fin 256) (k : Fin 1280) :
    k0_pay3 (F := Ideal) x0 (ix2 p k) = x0 (ix2 p k) := by
  unfold k0_pay3
  simp only [shapeCast_self]
  rfl

/-- The first store at entry (p, q): row p of the block times column q of the transposed weight, plus the bias row at q. -/
theorem first_apply (x0 : Vec Ideal S256x1280 .f32) (x1 : FVec Ideal S1280x3840 .bf16) (x2 : FVec Ideal S1x3840 .f32)
    (p : Fin 256) (q : Fin 3840) :
    k0_pay4 (F := Ideal) x0 x1 x2 (ix2 p q)
      = proj (fun k => x0 (ix2 p k)) (fun k => x1 (ix2 k q)) (x2 (ix2 (0 : Fin 1) q)) := by
  unfold k0_pay4 proj
  simp only [shapeCast_self]
  rw [addf_apply]
  refine congrArg₂ (· + ·) ?_ ?_
  · refine (PlainMatmul.apply dot_S256x1280_S1280x3840_S256x3840_1_0_0_1_n_n rfl rfl rfl rfl rfl rfl none (φ₁ := .bf16) (φ₂ := .bf16) (k0_pay3 (F := Ideal) x0) x1 p q).trans ?_
    exact Finset.sum_congr rfl fun k _ => by rw [row_apply]
  · exact PlainMatmul.rowSpread_apply x2 broadcasts_S1x3840_S256x3840 p q

/-- A chunk's low-rank product at entry (p, d): down through the 1280 x 16 factor, a change of format, up through the
    16 x 1280 factor. -/
theorem lowrank_apply (x0 : Vec Ideal S256x1280 .f32) (xa : FVec Ideal S1280x16 .bf16) (xb : FVec Ideal S16x1280 .bf16)
    (p : Fin 256) (d : Fin 1280) :
    (matmul dot_S256x16_S16x1280_S256x1280_1_0_0_1_n_n none
        (truncf .bf16 (matmul dot_S256x1280_S1280x16_S256x16_1_0_0_1_n_n none (k0_pay3 (F := Ideal) x0) xa
          (constant S256x16 .f32 0x00000000#32)) bitsLt_bf16_f32)
        xb (constant S256x1280 .f32 0x00000000#32) : FVec Ideal S256x1280 .f32) (ix2 p d)
      = ∑ r : Fin 16, (∑ k : Fin 1280, x0 (ix2 p k) * xa (ix2 k r)) * xb (ix2 r d) := by
  refine (PlainMatmul.apply dot_S256x16_S16x1280_S256x1280_1_0_0_1_n_n rfl rfl rfl rfl rfl rfl none (φ₁ := .bf16) (φ₂ := .bf16) _ xb p d).trans ?_
  refine Finset.sum_congr rfl fun r _ => ?_
  rw [truncf_apply]
  refine congrArg (· * xb (ix2 r d)) ?_
  refine (PlainMatmul.apply dot_S256x1280_S1280x16_S256x16_1_0_0_1_n_n rfl rfl rfl rfl rfl rfl none (φ₁ := .bf16) (φ₂ := .bf16) (k0_pay3 (F := Ideal) x0) xa p r).trans ?_
  exact Finset.sum_congr rfl fun k _ => by rw [row_apply]

/-- The q chunk's payload at (p, d): what its load read there plus the chunk's low-rank product times the scaling. -/
theorem payQ_apply (x0 : Vec Ideal S256x1280 .f32) (xa : FVec Ideal S1280x16 .bf16) (xb : FVec Ideal S16x1280 .bf16)
    (v : FVec Ideal S256x1280 .f32) (p : Fin 256) (d : Fin 1280) :
    k0_pay5 (F := Ideal) x0 xa xb v (ix2 p d)
      = v (ix2 p d) + (∑ r : Fin 16, (∑ k : Fin 1280, x0 (ix2 p k) * xa (ix2 k r)) * xb (ix2 r d)) * scale := by
  unfold k0_pay5
  simp only [shapeCast_self]
  rw [addf_apply, mulf_apply, broadcast_apply, lowrank_apply]
  rfl

/-- The k chunk's payload at (p, d). -/
theorem payK_apply (x0 : Vec Ideal S256x1280 .f32) (xa : FVec Ideal S1280x16 .bf16) (xb : FVec Ideal S16x1280 .bf16)
    (v : FVec Ideal S256x1280 .f32) (p : Fin 256) (d : Fin 1280) :
    k0_pay1 (F := Ideal) (k0_pay6 (F := Ideal) x0 xa xb) v (ix2 p d)
      = v (ix2 p d) + (∑ r : Fin 16, (∑ k : Fin 1280, x0 (ix2 p k) * xa (ix2 k r)) * xb (ix2 r d)) * scale := by
  unfold k0_pay1 k0_pay6
  simp only [shapeCast_self]
  rw [addf_apply, mulf_apply, broadcast_apply, lowrank_apply]
  rfl

/-- The v chunk's payload at (p, d). -/
theorem payV_apply (x0 : Vec Ideal S256x1280 .f32) (xa : FVec Ideal S1280x16 .bf16) (xb : FVec Ideal S16x1280 .bf16)
    (v : FVec Ideal S256x1280 .f32) (p : Fin 256) (d : Fin 1280) :
    k0_pay2 (F := Ideal) (k0_pay3 (F := Ideal) x0) xa xb v (ix2 p d)
      = v (ix2 p d) + (∑ r : Fin 16, (∑ k : Fin 1280, x0 (ix2 p k) * xa (ix2 k r)) * xb (ix2 r d)) * scale := by
  unfold k0_pay2
  simp only [shapeCast_self]
  rw [addf_apply, mulf_apply, broadcast_apply, lowrank_apply]
  rfl

section Entries

variable (x0 : Vec Ideal S256x1280 .f32) (x1 : FVec Ideal S1280x3840 .bf16) (x2 : FVec Ideal S1x3840 .f32)
  (x3 : FVec Ideal S1280x16 .bf16) (x4 : FVec Ideal S16x1280 .bf16) (x5 : FVec Ideal S1280x16 .bf16)
  (x6 : FVec Ideal S16x1280 .bf16) (x7 : FVec Ideal S1280x16 .bf16) (x8 : FVec Ideal S16x1280 .bf16)

/-- An entry of the block in the q chunk (column below 1280): the last store that covers it is the q chunk's. -/
theorem block_apply_Q (p : Fin 256) (q : Fin 3840) (d : Fin 1280) (hq : q.val = d.val) :
    blockOf (F := Ideal) x0 x1 x2 x3 x4 x5 x6 x7 x8 (ix2 p q)
      = entry (fun k => x0 (ix2 p k)) (fun k => x1 (ix2 k q)) (x2 (ix2 (0 : Fin 1) q)) (fun s k => x3 (ix2 k s)) (fun s => x4 (ix2 s d)) := by
  have hd : d.val < 1280 := d.isLt
  have hy : (ix2 p q : S256x3840.Idx) = rQ.emb (ix2 p d) := funext fun a => Fin.ext (by
    match a with
    | ⟨0, _⟩ => show p.val = 0 + 1 * p.val; omega
    | ⟨1, _⟩ => show q.val = 0 + 1 * d.val; omega)
  have nV : (ix2 p q : S256x3840.Idx) ∉ rV.set := fun h => by
    have h1 : 2560 ≤ q.val := (Rect.mem_set_unit.mp h 1).1
    omega
  have nK : (ix2 p q : S256x3840.Idx) ∉ rK.set := fun h => by
    have h1 : 1280 ≤ q.val := (Rect.mem_set_unit.mp h 1).1
    omega
  unfold blockOf
  rw [View.canon_cons_of_not_mem (⟨rV, _⟩ : View.Piece (Elt Ideal) S256x3840 .f32) _ nV,
    View.canon_cons_of_not_mem (⟨rK, _⟩ : View.Piece (Elt Ideal) S256x3840 .f32) _ nK]
  refine (congrArg _ hy).trans ?_
  rw [View.canon_cons_emb]
  refine (payQ_apply x0 x3 x4 _ p d).trans ?_
  show k0_pay4 (F := Ideal) x0 x1 x2 (rQ.emb (ix2 p d)) + _ = _
  rw [← hy, first_apply]
  rfl

/-- An entry in the k chunk (column from 1280, below 2560). -/
theorem block_apply_K (p : Fin 256) (q : Fin 3840) (d : Fin 1280) (hq : q.val = 1280 + d.val) :
    blockOf (F := Ideal) x0 x1 x2 x3 x4 x5 x6 x7 x8 (ix2 p q)
      = entry (fun k => x0 (ix2 p k)) (fun k => x1 (ix2 k q)) (x2 (ix2 (0 : Fin 1) q)) (fun s k => x5 (ix2 k s)) (fun s => x6 (ix2 s d)) := by
  have hd : d.val < 1280 := d.isLt
  have hy : (ix2 p q : S256x3840.Idx) = rK.emb (ix2 p d) := funext fun a => Fin.ext (by
    match a with
    | ⟨0, _⟩ => show p.val = 0 + 1 * p.val; omega
    | ⟨1, _⟩ => show q.val = 1280 + 1 * d.val; omega)
  have nV : (ix2 p q : S256x3840.Idx) ∉ rV.set := fun h => by
    have h1 : 2560 ≤ q.val := (Rect.mem_set_unit.mp h 1).1
    omega
  unfold blockOf
  rw [View.canon_cons_of_not_mem (⟨rV, _⟩ : View.Piece (Elt Ideal) S256x3840 .f32) _ nV]
  refine (congrArg _ hy).trans ?_
  rw [View.canon_cons_emb]
  refine (payK_apply x0 x5 x6 _ p d).trans ?_
  show k0_pay4 (F := Ideal) x0 x1 x2 (rK.emb (ix2 p d)) + _ = _
  rw [← hy, first_apply]
  rfl

/-- An entry in the v chunk (column from 2560). -/
theorem block_apply_V (p : Fin 256) (q : Fin 3840) (d : Fin 1280) (hq : q.val = 2560 + d.val) :
    blockOf (F := Ideal) x0 x1 x2 x3 x4 x5 x6 x7 x8 (ix2 p q)
      = entry (fun k => x0 (ix2 p k)) (fun k => x1 (ix2 k q)) (x2 (ix2 (0 : Fin 1) q)) (fun s k => x7 (ix2 k s)) (fun s => x8 (ix2 s d)) := by
  have hy : (ix2 p q : S256x3840.Idx) = rV.emb (ix2 p d) := funext fun a => Fin.ext (by
    match a with
    | ⟨0, _⟩ => show p.val = 0 + 1 * p.val; omega
    | ⟨1, _⟩ => show q.val = 2560 + 1 * d.val; omega)
  unfold blockOf
  refine (congrArg _ hy).trans ?_
  rw [View.canon_cons_emb]
  refine (payV_apply x0 x7 x8 _ p d).trans ?_
  show k0_pay4 (F := Ideal) x0 x1 x2 (rV.emb (ix2 p d)) + _ = _
  rw [← hy, first_apply]
  rfl

end Entries

end AtIdeal

end Cert.KernelIdeal.Block

end
-- ==== Proof.Layouts.lean ====
/-
  The two arrangements of the result, and that they are one function of the arguments.

  The reference keeps the activations as an [8, 64, 64, 1280] array and the weights in the layer's own layout
  (W : [3840, 1280], A : [16, 1280], B : [1280, 16]); the kernel works on the rows flattened to [32768, 1280], on the
  transposed weights, and on the bias as a one-row matrix, and its [32768, 3840] result is reshaped back. Entry
  (i0, i1, i2, o) of the result is the entry of row (i0 * 64 + i1) * 64 + i2 of the flat result at column o; the column
  picks the chunk (q, k or v: o below 1280, below 2560, or above) and the position o - 1280 * chunk inside it.
-/
import proofs.«111045_j25013889532113_1_alg».proof.Proof.Spec
import Idealize.ShloMosaic.Lib.Pipeline.Value

noncomputable section

open scoped BigOperators
open Idealize.ShloMosaic Idealize.ShloMosaic.ValueIdx

namespace Cert.LoraQkv

/-- The shapes, written out. -/
abbrev Sx4 : Shape := ⟨4, ![8, 64, 64, 1280]⟩
abbrev So4 : Shape := ⟨4, ![8, 64, 64, 3840]⟩
abbrev Sx2 : Shape := ⟨2, ![32768, 1280]⟩
abbrev So2 : Shape := ⟨2, ![32768, 3840]⟩
abbrev SW : Shape := ⟨2, ![3840, 1280]⟩
abbrev SWt : Shape := ⟨2, ![1280, 3840]⟩
abbrev Sb : Shape := ⟨1, ![3840]⟩
abbrev Sb2 : Shape := ⟨2, ![1, 3840]⟩
abbrev SA : Shape := ⟨2, ![16, 1280]⟩
abbrev SB : Shape := ⟨2, ![1280, 16]⟩

/-- An entry in the kernel's arrangement: flat row `r`, column `q`, position `d` inside the column's chunk. -/
def flatEntry (X : Sx2.Idx → EReal) (Wt : SWt.Idx → EReal) (Bi : Sb2.Idx → EReal) (At : SB.Idx → EReal) (Bt : SA.Idx → EReal)
    (r : Fin 32768) (q : Fin 3840) (d : Fin 1280) : EReal :=
  entry (fun k => X (ix2 r k)) (fun k => Wt (ix2 k q)) (Bi (ix2 (0 : Fin 1) q)) (fun s k => At (ix2 k s)) (fun s => Bt (ix2 s d))

/-- The flat result: the chunk is chosen by the column. -/
def flatOut (X : Sx2.Idx → EReal) (Wt : SWt.Idx → EReal) (Bi : Sb2.Idx → EReal)
    (Aq : SB.Idx → EReal) (Bq : SA.Idx → EReal) (Ak : SB.Idx → EReal) (Bk : SA.Idx → EReal) (Av : SB.Idx → EReal) (Bv : SA.Idx → EReal)
    (j : So2.Idx) : EReal :=
  if h1 : (j 1).val < 1280 then flatEntry X Wt Bi Aq Bq ⟨(j 0).val, idx2_lt0 j⟩ ⟨(j 1).val, idx2_lt1 j⟩ ⟨(j 1).val, h1⟩
  else if h2 : (j 1).val < 2560 then
    flatEntry X Wt Bi Ak Bk ⟨(j 0).val, idx2_lt0 j⟩ ⟨(j 1).val, idx2_lt1 j⟩ ⟨(j 1).val - 1280, by omega⟩
  else flatEntry X Wt Bi Av Bv ⟨(j 0).val, idx2_lt0 j⟩ ⟨(j 1).val, idx2_lt1 j⟩ ⟨(j 1).val - 2560, by have := idx2_lt1 j; omega⟩

/-- An entry in the reference's arrangement. -/
def entry4 (x : Sx4.Idx → EReal) (W : SW.Idx → EReal) (b : Sb.Idx → EReal) (A : SA.Idx → EReal) (B : SB.Idx → EReal)
    (i0 : Fin 8) (i1 i2 : Fin 64) (o : Fin 3840) (d : Fin 1280) : EReal :=
  entry (fun k => x (ix4 i0 i1 i2 k)) (fun k => W (ix2 o k)) (b (ix1 o)) (fun s k => A (ix2 s k)) (fun s => B (ix2 d s))

/-- The result in the reference's arrangement. -/
def out4 (x : Sx4.Idx → EReal) (W : SW.Idx → EReal) (b : Sb.Idx → EReal)
    (Aq : SA.Idx → EReal) (Bq : SB.Idx → EReal) (Ak : SA.Idx → EReal) (Bk : SB.Idx → EReal) (Av : SA.Idx → EReal) (Bv : SB.Idx → EReal)
    (i : So4.Idx) : EReal :=
  if h1 : (i 3).val < 1280 then entry4 x W b Aq Bq (i 0) (i 1) (i 2) (i 3) ⟨(i 3).val, h1⟩
  else if h2 : (i 3).val < 2560 then entry4 x W b Ak Bk (i 0) (i 1) (i 2) (i 3) ⟨(i 3).val - 1280, by omega⟩
  else entry4 x W b Av Bv (i 0) (i 1) (i 2) (i 3) ⟨(i 3).val - 2560, by have : (i 3).val < 3840 := (i 3).isLt; omega⟩

section Bridge

variable (x : Sx4.Idx → EReal) (W : SW.Idx → EReal) (b : Sb.Idx → EReal)
variable (hx : Sx4.ShapeCasts Sx2) (hW : SW.Transposes [1, 0] SWt) (hb : Sb.ShapeCasts Sb2)
variable (hA : SA.Transposes [1, 0] SB) (hB : SB.Transposes [1, 0] SA)

/-- A flat row of the reshaped activations is the row of the original at the row's three coordinates. -/
theorem flatRow (i0 : Fin 8) (i1 i2 : Fin 64) (r : Fin 32768) (hr : r.val = (i0.val * 64 + i1.val) * 64 + i2.val) (k : Fin 1280) :
    shapeCast Sx2 x hx (ix2 r k) = x (ix4 i0 i1 i2 k) := by
  refine shapeCast_apply x hx (ix2 r k) (ix4 i0 i1 i2 k) ?_
  rw [Shape.rowMajor_val_two, Shape.rowMajor_val_four]
  show ((i0.val * 64 + i1.val) * 64 + i2.val) * 1280 + k.val = r.val * 1280 + k.val
  rw [hr]

/-- The transposed weight at (k, o) is the weight at (o, k). -/
theorem wT (k : Fin 1280) (o : Fin 3840) : transpose SWt [1, 0] W hW (ix2 k o) = W (ix2 o k) :=
  transpose_apply [1, 0] W hW (ix2 k o) (ix2 o k) fun a => by
    match a with
    | ⟨0, _⟩ => rfl
    | ⟨1, _⟩ => rfl

/-- The bias as a one-row matrix. -/
theorem bRow (o : Fin 3840) : shapeCast Sb2 b hb (ix2 (0 : Fin 1) o) = b (ix1 o) := by
  refine shapeCast_apply b hb (ix2 (0 : Fin 1) o) (ix1 o) ?_
  rw [Shape.rowMajor_val_two, Shape.rowMajor_val_one]
  show o.val = 0 * 3840 + o.val
  omega

/-- A transposed down-projection at (k, s) is the factor at (s, k). -/
theorem aT (A : SA.Idx → EReal) (k : Fin 1280) (s : Fin 16) : transpose SB [1, 0] A hA (ix2 k s) = A (ix2 s k) :=
  transpose_apply [1, 0] A hA (ix2 k s) (ix2 s k) fun a => by
    match a with
    | ⟨0, _⟩ => rfl
    | ⟨1, _⟩ => rfl

/-- A transposed up-projection at (s, d) is the factor at (d, s). -/
theorem bT (B : SB.Idx → EReal) (s : Fin 16) (d : Fin 1280) : transpose SA [1, 0] B hB (ix2 s d) = B (ix2 d s) :=
  transpose_apply [1, 0] B hB (ix2 s d) (ix2 d s) fun a => by
    match a with
    | ⟨0, _⟩ => rfl
    | ⟨1, _⟩ => rfl

/-- One entry: the kernel's arrangement over the re-laid arguments is the reference's over the arguments. -/
theorem flatEntry_eq (A : SA.Idx → EReal) (B : SB.Idx → EReal) (i0 : Fin 8) (i1 i2 : Fin 64) (r : Fin 32768)
    (hr : r.val = (i0.val * 64 + i1.val) * 64 + i2.val) (o : Fin 3840) (d : Fin 1280) :
    flatEntry (shapeCast Sx2 x hx) (transpose SWt [1, 0] W hW) (shapeCast Sb2 b hb) (transpose SB [1, 0] A hA)
        (transpose SA [1, 0] B hB) r o d
      = entry4 x W b A B i0 i1 i2 o d := by
  unfold flatEntry entry4
  simp only [flatRow x hx i0 i1 i2 r hr, wT W hW, bRow b hb, aT hA A, bT hB B]

/-- The flat result at row `r`, column `q`: the chunk by the column. -/
theorem flatOut_ix2 (X : Sx2.Idx → EReal) (Wt : SWt.Idx → EReal) (Bi : Sb2.Idx → EReal)
    (Aq : SB.Idx → EReal) (Bq : SA.Idx → EReal) (Ak : SB.Idx → EReal) (Bk : SA.Idx → EReal) (Av : SB.Idx → EReal) (Bv : SA.Idx → EReal)
    (r : Fin 32768) (q : Fin 3840) :
    flatOut X Wt Bi Aq Bq Ak Bk Av Bv (ix2 r q)
      = if h1 : q.val < 1280 then flatEntry X Wt Bi Aq Bq r q ⟨q.val, h1⟩
        else if h2 : q.val < 2560 then flatEntry X Wt Bi Ak Bk r q ⟨q.val - 1280, by omega⟩
        else flatEntry X Wt Bi Av Bv r q ⟨q.val - 2560, by have := q.isLt; omega⟩ := rfl

/-- The kernel's arrangement over the re-laid arguments, reshaped back, is the reference's arrangement over the arguments. -/
theorem flatOut_eq (Aq : SA.Idx → EReal) (Bq : SB.Idx → EReal) (Ak : SA.Idx → EReal) (Bk : SB.Idx → EReal)
    (Av : SA.Idx → EReal) (Bv : SB.Idx → EReal) (ho : So2.ShapeCasts So4) :
    shapeCast So4 (flatOut (shapeCast Sx2 x hx) (transpose SWt [1, 0] W hW) (shapeCast Sb2 b hb)
        (transpose SB [1, 0] Aq hA) (transpose SA [1, 0] Bq hB) (transpose SB [1, 0] Ak hA) (transpose SA [1, 0] Bk hB)
        (transpose SB [1, 0] Av hA) (transpose SA [1, 0] Bv hB)) ho
      = out4 x W b Aq Bq Ak Bk Av Bv := by
  funext i
  have h0 : (i 0).val < 8 := (i 0).isLt
  have h1 : (i 1).val < 64 := (i 1).isLt
  have h2 : (i 2).val < 64 := (i 2).isLt
  have h3 : (i 3).val < 3840 := (i 3).isLt
  have hr : ((i 0).val * 64 + (i 1).val) * 64 + (i 2).val < 32768 := by omega
  refine (shapeCast_apply _ ho i (ix2 ⟨((i 0).val * 64 + (i 1).val) * 64 + (i 2).val, hr⟩ ⟨(i 3).val, h3⟩) ?_).trans ?_
  · rw [Shape.rowMajor_val_two, Shape.rowMajor_val_four]
    rfl
  · rw [flatOut_ix2]
    unfold out4
    by_cases c1 : (i 3).val < 1280
    · rw [dif_pos c1, dif_pos c1]
      exact flatEntry_eq x W b hx hW hb hA hB Aq Bq (i 0) (i 1) (i 2) _ rfl _ _
    · rw [dif_neg c1, dif_neg c1]
      by_cases c2 : (i 3).val < 2560
      · rw [dif_pos c2, dif_pos c2]
        exact flatEntry_eq x W b hx hW hb hA hB Ak Bk (i 0) (i 1) (i 2) _ rfl _ _
      · rw [dif_neg c2, dif_neg c2]
        exact flatEntry_eq x W b hx hW hb hA hB Av Bv (i 0) (i 1) (i 2) _ rfl _ _

end Bridge

end Cert.LoraQkv

end
-- ==== Proof.KernelArray.lean ====
/-
  The kernel's result array, and its run read back.

  Grid point t stages rows 256 t … 256 t + 255 of the flattened activations and the whole of every weight-like array, and
  writes its 256 x 3840 block back as rows 256 t … of the result. So the result array is one function of the arrays the
  region finds: entry (r, o) is the entry of row r at column o. The host lines before the region make those arrays
  from the arguments (a reshape of x, the transposed weights, the bias as a one-row matrix; the conversions to bf16 are
  the identity on extended reals), and the line after it reshapes the result back to [8, 64, 64, 3840].
-/
import proofs.«111045_j25013889532113_1_alg».proof.Proof.KernelBlock
import proofs.«111045_j25013889532113_1_alg».proof.Proof.Layouts
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Block Cert.LoraQkv Idealize.ShloMosaic.ValueIdx

variable (m : (ℓ : Loc nD τ sig) → Buf (Elt Ideal) ℓ) (ρ : Dev nD → PrngReg)

/-! ## The arrays the region finds, and the blocks a point reads of them -/

abbrev xA (c : Dev nD) : Vec Ideal S32768x1280 .f32 := V m c main_v0
abbrev wA (c : Dev nD) : FVec Ideal S1280x3840 .bf16 := V m c main_v2
abbrev bA (c : Dev nD) : FVec Ideal S1x3840 .f32 := V m c main_v3
abbrev aqA (c : Dev nD) : FVec Ideal S1280x16 .bf16 := V m c main_v5
abbrev bqA (c : Dev nD) : FVec Ideal S16x1280 .bf16 := V m c main_v7
abbrev akA (c : Dev nD) : FVec Ideal S1280x16 .bf16 := V m c main_v9
abbrev bkA (c : Dev nD) : FVec Ideal S16x1280 .bf16 := V m c main_v11
abbrev avA (c : Dev nD) : FVec Ideal S1280x16 .bf16 := V m c main_v13
abbrev bvA (c : Dev nD) : FVec Ideal S16x1280 .bf16 := V m c main_v15

abbrev blk0 (c : Dev nD) (t : Fin cfg0.N) : Vec Ideal S256x1280 .f32 := iblk m c 0 t
abbrev blk1 (c : Dev nD) (t : Fin cfg0.N) : FVec Ideal S1280x3840 .bf16 := iblk m c 1 t
abbrev blk2 (c : Dev nD) (t : Fin cfg0.N) : FVec Ideal S1x3840 .f32 := iblk m c 2 t
abbrev blk3 (c : Dev nD) (t : Fin cfg0.N) : FVec Ideal S1280x16 .bf16 := iblk m c 3 t
abbrev blk4 (c : Dev nD) (t : Fin cfg0.N) : FVec Ideal S16x1280 .bf16 := iblk m c 4 t
abbrev blk5 (c : Dev nD) (t : Fin cfg0.N) : FVec Ideal S1280x16 .bf16 := iblk m c 5 t
abbrev blk6 (c : Dev nD) (t : Fin cfg0.N) : FVec Ideal S16x1280 .bf16 := iblk m c 6 t
abbrev blk7 (c : Dev nD) (t : Fin cfg0.N) : FVec Ideal S1280x16 .bf16 := iblk m c 7 t
abbrev blk8 (c : Dev nD) (t : Fin cfg0.N) : FVec Ideal S16x1280 .bf16 := iblk m c 8 t

/-- The index maps over the grid: the activations' and the result's row block moves with the point; every other block
    index stays zero. -/
theorem idx_rows : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

theorem idx_fixed : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row p of point t's activation block is row 256 t + p of the flattened activations. -/
theorem blk0_apply (c : Dev nD) (t : Fin cfg0.N) (p : Fin 256) (k : Fin 1280) (r : Fin 32768) (hr : r.val = 256 * t.val + p.val) :
    blk0 m c t (ix2 p k) = xA m c (ix2 r k) := by
  show V m c main_v0 (((cfg0.win 0).blk t).view.emb (ix2 p k)) = V m c main_v0 (ix2 r k)
  refine congrArg _ (funext fun a => Fin.ext ?_)
  match a with
  | ⟨0, _⟩ => show win0_0.index t (0 : Fin 2) * 256 + 1 * p.val = r.val; rw [(idx_rows t).1]; omega
  | ⟨1, _⟩ => show win0_0.index t (1 : Fin 2) * 1280 + 1 * k.val = k.val; rw [(idx_rows t).2.1]; omega

theorem blk1_apply (c : Dev nD) (t : Fin cfg0.N) (k : Fin 1280) (q : Fin 3840) : blk1 m c t (ix2 k q) = wA m c (ix2 k q) := by
  show V m c main_v2 (((cfg0.win 1).blk t).view.emb (ix2 k q)) = V m c main_v2 (ix2 k q)
  refine congrArg _ (funext fun a => Fin.ext ?_)
  obtain ⟨e0, e1, -⟩ := idx_fixed t
  match a with
  | ⟨0, _⟩ => show win0_1.index t (0 : Fin 2) * 1280 + 1 * k.val = k.val; rw [e0]; omega
  | ⟨1, _⟩ => show win0_1.index t (1 : Fin 2) * 3840 + 1 * q.val = q.val; rw [e1]; omega

theorem blk2_apply (c : Dev nD) (t : Fin cfg0.N) (z : Fin 1) (q : Fin 3840) : blk2 m c t (ix2 z q) = bA m c (ix2 z q) := by
  show V m c main_v3 (((cfg0.win 2).blk t).view.emb (ix2 z q)) = V m c main_v3 (ix2 z q)
  refine congrArg _ (funext fun a => Fin.ext ?_)
  obtain ⟨-, -, e0, e1, -⟩ := idx_fixed t
  match a with
  | ⟨0, _⟩ => show win0_2.index t (0 : Fin 2) * 1 + 1 * z.val = z.val; rw [e0]; omega
  | ⟨1, _⟩ => show win0_2.index t (1 : Fin 2) * 3840 + 1 * q.val = q.val; rw [e1]; omega

theorem blk3_apply (c : Dev nD) (t : Fin cfg0.N) (k : Fin 1280) (s : Fin 16) : blk3 m c t (ix2 k s) = aqA m c (ix2 k s) := by
  show V m c main_v5 (((cfg0.win 3).blk t).view.emb (ix2 k s)) = V m c main_v5 (ix2 k s)
  refine congrArg _ (funext fun a => Fin.ext ?_)
  obtain ⟨-, -, -, -, e0, e1, -⟩ := idx_fixed t
  match a with
  | ⟨0, _⟩ => show win0_3.index t (0 : Fin 2) * 1280 + 1 * k.val = k.val; rw [e0]; omega
  | ⟨1, _⟩ => show win0_3.index t (1 : Fin 2) * 16 + 1 * s.val = s.val; rw [e1]; omega

theorem blk4_apply (c : Dev nD) (t : Fin cfg0.N) (s : Fin 16) (d : Fin 1280) : blk4 m c t (ix2 s d) = bqA m c (ix2 s d) := by
  show V m c main_v7 (((cfg0.win 4).blk t).view.emb (ix2 s d)) = V m c main_v7 (ix2 s d)
  refine congrArg _ (funext fun a => Fin.ext ?_)
  obtain ⟨-, -, -, -, -, -, e0, e1, -⟩ := idx_fixed t
  match a with
  | ⟨0, _⟩ => show win0_4.index t (0 : Fin 2) * 16 + 1 * s.val = s.val; rw [e0]; omega
  | ⟨1, _⟩ => show win0_4.index t (1 : Fin 2) * 1280 + 1 * d.val = d.val; rw [e1]; omega

theorem blk5_apply (c : Dev nD) (t : Fin cfg0.N) (k : Fin 1280) (s : Fin 16) : blk5 m c t (ix2 k s) = akA m c (ix2 k s) := by
  show V m c main_v9 (((cfg0.win 5).blk t).view.emb (ix2 k s)) = V m c main_v9 (ix2 k s)
  refine congrArg _ (funext fun a => Fin.ext ?_)
  obtain ⟨-, -, -, -, -, -, -, -, e0, e1, -⟩ := idx_fixed t
  match a with
  | ⟨0, _⟩ => show win0_5.index t (0 : Fin 2) * 1280 + 1 * k.val = k.val; rw [e0]; omega
  | ⟨1, _⟩ => show win0_5.index t (1 : Fin 2) * 16 + 1 * s.val = s.val; rw [e1]; omega

theorem blk6_apply (c : Dev nD) (t : Fin cfg0.N) (s : Fin 16) (d : Fin 1280) : blk6 m c t (ix2 s d) = bkA m c (ix2 s d) := by
  show V m c main_v11 (((cfg0.win 6).blk t).view.emb (ix2 s d)) = V m c main_v11 (ix2 s d)
  refine congrArg _ (funext fun a => Fin.ext ?_)
  obtain ⟨-, -, -, -, -, -, -, -, -, -, e0, e1, -⟩ := idx_fixed t
  match a with
  | ⟨0, _⟩ => show win0_6.index t (0 : Fin 2) * 16 + 1 * s.val = s.val; rw [e0]; omega
  | ⟨1, _⟩ => show win0_6.index t (1 : Fin 2) * 1280 + 1 * d.val = d.val; rw [e1]; omega

theorem blk7_apply (c : Dev nD) (t : Fin cfg0.N) (k : Fin 1280) (s : Fin 16) : blk7 m c t (ix2 k s) = avA m c (ix2 k s) := by
  show V m c main_v13 (((cfg0.win 7).blk t).view.emb (ix2 k s)) = V m c main_v13 (ix2 k s)
  refine congrArg _ (funext fun a => Fin.ext ?_)
  obtain ⟨-, -, -, -, -, -, -, -, -, -, -, -, e0, e1, -⟩ := idx_fixed t
  match a with
  | ⟨0, _⟩ => show win0_7.index t (0 : Fin 2) * 1280 + 1 * k.val = k.val; rw [e0]; omega
  | ⟨1, _⟩ => show win0_7.index t (1 : Fin 2) * 16 + 1 * s.val = s.val; rw [e1]; omega

theorem blk8_apply (c : Dev nD) (t : Fin cfg0.N) (s : Fin 16) (d : Fin 1280) : blk8 m c t (ix2 s d) = bvA m c (ix2 s d) := by
  show V m c main_v15 (((cfg0.win 8).blk t).view.emb (ix2 s d)) = V m c main_v15 (ix2 s d)
  refine congrArg _ (funext fun a => Fin.ext ?_)
  obtain ⟨-, -, -, -, -, -, -, -, -, -, -, -, -, -, e0, e1⟩ := idx_fixed t
  match a with
  | ⟨0, _⟩ => show win0_8.index t (0 : Fin 2) * 16 + 1 * s.val = s.val; rw [e0]; omega
  | ⟨1, _⟩ => show win0_8.index t (1 : Fin 2) * 1280 + 1 * d.val = d.val; rw [e1]; omega

/-! ## The result array as one function of the arrays the region finds -/

/-- The flat result over the arrays the region finds. -/
abbrev flat (c : Dev nD) : Vec Ideal S32768x3840 .f32 :=
  flatOut (xA m c) (wA m c) (bA m c) (aqA m c) (bqA m c) (akA m c) (bkA m c) (avA m c) (bvA m c)

/-- One entry over a point's blocks is the entry over the arrays, at the point's rows. -/
theorem entry_blocks (c : Dev nD) (t : Fin cfg0.N) (p : Fin 256) (q : Fin 3840) (d : Fin 1280) (r : Fin 32768)
    (hr : r.val = 256 * t.val + p.val)
    (xa : FVec Ideal S1280x16 .bf16) (xb : FVec Ideal S16x1280 .bf16) (A : FVec Ideal S1280x16 .bf16) (B : FVec Ideal S16x1280 .bf16)
    (ha : ∀ k s, xa (ix2 k s) = A (ix2 k s)) (hb : ∀ s d, xb (ix2 s d) = B (ix2 s d)) :
    entry (fun k => blk0 m c t (ix2 p k)) (fun k => blk1 m c t (ix2 k q)) (blk2 m c t (ix2 (0 : Fin 1) q))
        (fun s k => xa (ix2 k s)) (fun s => xb (ix2 s d))
      = flatEntry (xA m c) (wA m c) (bA m c) A B r q d := by
  unfold flatEntry
  simp only [blk0_apply m c t p _ r hr, blk1_apply, blk2_apply, ha, hb]

/-- Point t's block at a block index is the flat result at the array index under it. -/
theorem block_is_flat (c : Dev nD) (t : Fin cfg0.N) (y : S256x3840.Idx) (i : S32768x3840.Idx)
    (h0 : (i 0).val = 256 * t.val + (y 0).val) (h1 : (i 1).val = (y 1).val) :
    blockOf (F := Ideal) (blk0 m c t) (blk1 m c t) (blk2 m c t) (blk3 m c t) (blk4 m c t) (blk5 m c t) (blk6 m c t)
        (blk7 m c t) (blk8 m c t) y
      = flat m c i := by
  obtain ⟨p, q, rfl⟩ : ∃ (p : Fin 256) (q : Fin 3840), y = ix2 p q := ⟨y 0, y 1, eq_ix2 y⟩
  obtain ⟨r, o, rfl⟩ : ∃ (r : Fin 32768) (o : Fin 3840), i = ix2 r o := ⟨i 0, i 1, eq_ix2 i⟩
  have hr : r.val = 256 * t.val + p.val := h0
  obtain rfl : o = q := Fin.ext h1
  have hq : o.val < 3840 := o.isLt
  show _ = flatOut _ _ _ _ _ _ _ _ _ (ix2 r o)
  rw [flatOut_ix2]
  by_cases c1 : o.val < 1280
  · rw [dif_pos c1, block_apply_Q _ _ _ _ _ _ _ _ _ p o ⟨o.val, c1⟩ rfl]
    exact entry_blocks m c t p o _ r hr _ _ _ _ (blk3_apply m c t) (blk4_apply m c t)
  · rw [dif_neg c1]
    by_cases c2 : o.val < 2560
    · rw [dif_pos c2, block_apply_K _ _ _ _ _ _ _ _ _ p o ⟨o.val - 1280, by omega⟩ (by show o.val = 1280 + (o.val - 1280); omega)]
      exact entry_blocks m c t p o _ r hr _ _ _ _ (blk5_apply m c t) (blk6_apply m c t)
    · rw [dif_neg c2, block_apply_V _ _ _ _ _ _ _ _ _ p o ⟨o.val - 2560, by omega⟩ (by show o.val = 2560 + (o.val - 2560); omega)]
      exact entry_blocks m c t p o _ r hr _ _ _ _ (blk7_apply m c t) (blk8_apply m c t)

/-- What point t writes back is block t of the flat result. -/
theorem flushed_eq (c : Dev nD) (t : Fin cfg0.N) :
    (dats m 0 c).flushed 9 t = ((cfg0.win 9).blk t).view.read (Elt Ideal) (flat m c) := by
  show (cfg0.win 9).cut (grid0.coords t) ((dats m 0 c).after 9 t) = _
  rw [after0_9]
  unfold outsAt0
  rw [block_eq]
  funext j
  refine block_is_flat m c t j (((cfg0.win 9).blk t).view.emb j) ?_ ?_
  · show win0_9.index t (0 : Fin 2) * 256 + 1 * (j 0).val = 256 * t.val + (j 0).val
    rw [(idx_rows t).2.2.1]; omega
  · show win0_9.index t (1 : Fin 2) * 3840 + 1 * (j 1).val = (j 1).val
    rw [(idx_rows t).2.2.2]; omega

/-- An index of the result array is in point t's block iff each coordinate is in the block's range on its axis. -/
theorem mem_blk (t : Fin cfg0.N) (i : S32768x3840.Idx) :
    i ∈ ((cfg0.win 9).blk t).view.set ↔ ∀ a : Fin 2, win0_9.index t a * S256x3840.size a ≤ (i a).val
      ∧ (i a).val < win0_9.index t a * S256x3840.size a + S256x3840.size a := by
  show i ∈ ((View.whole main_v16).slice (win0_9.rect t)).set ↔ _
  rw [View.set_slice_whole, Rect.mem_set_unit]
  exact Iff.rfl

/-- Row r of the result lies in the block of point r / 256. -/
theorem cover (i : S32768x3840.Idx) : ∃ t : Fin cfg0.N, (cfg0.win 9).flush t = true ∧ i ∈ ((cfg0.win 9).blk t).view.set := by
  have hi0 : (i 0).val < 32768 := (i 0).isLt
  have hi1 : (i 1).val < 3840 := (i 1).isLt
  have hN : cfg0.N = 128 := N_0
  have ht : (i 0).val / 256 < cfg0.N := by rw [hN]; omega
  refine ⟨⟨(i 0).val / 256, ht⟩, flush0_9 _, ?_⟩
  rw [mem_blk]
  obtain ⟨-, -, e0, e1⟩ := idx_rows ⟨(i 0).val / 256, ht⟩
  intro a
  match a with
  | ⟨0, _⟩ =>
    show win0_9.index ⟨(i 0).val / 256, ht⟩ (0 : Fin 2) * 256 ≤ (i 0).val ∧ (i 0).val < win0_9.index ⟨(i 0).val / 256, ht⟩ (0 : Fin 2) * 256 + 256
    rw [e0]; dsimp only; omega
  | ⟨1, _⟩ =>
    show win0_9.index ⟨(i 0).val / 256, ht⟩ (1 : Fin 2) * 3840 ≤ (i 1).val ∧ (i 1).val < win0_9.index ⟨(i 0).val / 256, ht⟩ (1 : Fin 2) * 3840 + 3840
    rw [e1]; omega

/-- The result array after the run. -/
theorem final (c : Dev nD) : (dats m 0 c).arrAt 9 cfg0.N = flat m c :=
  (dats m 0 c).arrAt_eq_of_cover 9 (flat m c) (fun t _ => flushed_eq m c t) (cover)

/-! ## The host lines before the region: the arrays it finds, from the arguments -/

theorem xA_eq (c : Dev nD) :
    xA m c = shapeCast S32768x1280 (m ((c.tc : Thread nD τ).loc main_arg0)) shapeCasts_S8x64x64x1280_S32768x1280 := by
  show StableHlo.after hostOps0 (fun b => m (c, b)) (Proc.devRef .tc main_v0) = _
  after_results
  rfl

theorem wA_eq (c : Dev nD) :
    wA m c = transpose S1280x3840 [1, 0] (m ((c.tc : Thread nD τ).loc main_arg1)) transposes_S3840x1280_S1280x3840_1_0 := by
  show StableHlo.after hostOps0 (fun b => m (c, b)) (Proc.devRef .tc main_v2) = _
  after_results
  rfl

theorem bA_eq (c : Dev nD) :
    bA m c = shapeCast S1x3840 (m ((c.tc : Thread nD τ).loc main_arg2)) shapeCasts_S3840_S1x3840 := by
  show StableHlo.after hostOps0 (fun b => m (c, b)) (Proc.devRef .tc main_v3) = _
  after_results
  rfl

theorem aqA_eq (c : Dev nD) :
    aqA m c = transpose S1280x16 [1, 0] (m ((c.tc : Thread nD τ).loc main_arg3)) transposes_S16x1280_S1280x16_1_0 := by
  show StableHlo.after hostOps0 (fun b => m (c, b)) (Proc.devRef .tc main_v5) = _
  after_results
  rfl

theorem bqA_eq (c : Dev nD) :
    bqA m c = transpose S16x1280 [1, 0] (m ((c.tc : Thread nD τ).loc main_arg4)) transposes_S1280x16_S16x1280_1_0 := by
  show StableHlo.after hostOps0 (fun b => m (c, b)) (Proc.devRef .tc main_v7) = _
  after_results
  rfl

theorem akA_eq (c : Dev nD) :
    akA m c = transpose S1280x16 [1, 0] (m ((c.tc : Thread nD τ).loc main_arg5)) transposes_S16x1280_S1280x16_1_0 := by
  show StableHlo.after hostOps0 (fun b => m (c, b)) (Proc.devRef .tc main_v9) = _
  after_results
  rfl

theorem bkA_eq (c : Dev nD) :
    bkA m c = transpose S16x1280 [1, 0] (m ((c.tc : Thread nD τ).loc main_arg6)) transposes_S1280x16_S16x1280_1_0 := by
  show StableHlo.after hostOps0 (fun b => m (c, b)) (Proc.devRef .tc main_v11) = _
  after_results
  rfl

theorem avA_eq (c : Dev nD) :
    avA m c = transpose S1280x16 [1, 0] (m ((c.tc : Thread nD τ).loc main_arg7)) transposes_S16x1280_S1280x16_1_0 := by
  show StableHlo.after hostOps0 (fun b => m (c, b)) (Proc.devRef .tc main_v13) = _
  after_results
  rfl

theorem bvA_eq (c : Dev nD) :
    bvA m c = transpose S16x1280 [1, 0] (m ((c.tc : Thread nD τ).loc main_arg8)) transposes_S1280x16_S16x1280_1_0 := by
  show StableHlo.after hostOps0 (fun b => m (c, b)) (Proc.devRef .tc main_v15) = _
  after_results
  rfl

/-- The flat result, reshaped back, is the reference's arrangement over the arguments. -/
theorem result_eq (c : Dev nD) :
    shapeCast S8x64x64x3840 (flat m c) shapeCasts_S32768x3840_S8x64x64x3840
      = out4 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  show shapeCast S8x64x64x3840 (flatOut (xA m c) (wA m c) (bA m c) (aqA m c) (bqA m c) (akA m c) (bkA m c) (avA m c) (bvA m c)) _ = _
  rw [xA_eq, wA_eq, bA_eq, aqA_eq, bqA_eq, akA_eq, bkA_eq, avA_eq, bvA_eq]
  exact flatOut_eq _ _ _ _ _ _ _ _ _ _ _ _ _ _ _

/-! ## The host line after the region, and the run -/

/-- The result buffer after the closing reshape. -/
theorem tail_eq (c : Dev nD) :
    Pipeline.afterTail₀ cfgs (dats m) 0 (V0 m) [hostOps1] c main_v17
      = shapeCast S8x64x64x3840 (flat m c) shapeCasts_S32768x3840_S8x64x64x3840 := by
  unfold Pipeline.afterTail₀
  show StableHlo.after hostOps1 _ (Proc.devRef .tc main_v17) = _
  after_results
  have e := (Pipeline.withArrays_arr spec0 launch0.win.arr_inj c (V0 m c) (fun w => (dats m 0 c).arrAt w cfg0.N) 9).trans (final m c)
  funext i
  exact congrArg (fun z : Vec Ideal S32768x3840 .f32 => shapeCast S8x64x64x3840 z shapeCasts_S32768x3840_S8x64x64x3840 i) e

/-- The kernel's run, read: the result buffer holds the reference's arrangement over the arguments, and the arguments end
    unchanged. -/
theorem run : θ_run defs (onTc (τ := τ) (main (F := Ideal))) ⟨m, fun _ => 0, ρ⟩ fun r => ∀ c : Dev nD,
      r.2.mem ((c.tc : Thread nD τ).loc main_v17)
        = out4 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v17 (Pipeline.mem_restRefs_of main_v17 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Arr

end
-- ==== Proof.RefValue.lean ====
/-
  The reference's result at one entry.

  The reference adds the bias to x · Wᵀ on the whole [8, 64, 64, 3840] array, slices the three 1280-wide chunks out of
  it, adds to each chunk its low-rank correction ((x · Aᵀ) · Bᵀ) · 1, and joins the chunks again along the last axis. So
  entry (i0, i1, i2, o) comes from the chunk that holds column o, at position o - 1280 · chunk, and is the projection
  entry at column o plus that chunk's correction at that position: the entry of Proof/Layouts.lean's `out4`.
-/
import proofs.«111045_j25013889532113_1_alg».proof.Proof.Gen.ReferenceIdeal.Read
import proofs.«111045_j25013889532113_1_alg».proof.Proof.Layouts

noncomputable section

open scoped BigOperators
open Idealize.ShloMosaic Idealize.ShloMosaic.TcCoe

namespace Cert.ReferenceIdeal.RefValue

open Cert.ReferenceIdeal Cert.ReferenceIdeal.Gen Cert.ReferenceIdeal.Read Cert.LoraQkv Idealize.ShloMosaic.ValueIdx

variable (x0 : (⟨S8x64x64x1280, .f32⟩ : BufTy).Contents (Elt Ideal)) (x1 : (⟨S3840x1280, .f32⟩ : BufTy).Contents (Elt Ideal))
  (x2 : (⟨S3840, .f32⟩ : BufTy).Contents (Elt Ideal))

/-- The projection with its bias, at an entry of the whole array. -/
theorem base_stage (j : S8x64x64x3840.Idx) :
    val_main_v3 (F := Ideal) x0 x1 x2 j
      = proj (fun k => x0 (ix4 (j 0) (j 1) (j 2) k)) (fun k => x1 (ix2 (j 3) k)) (x2 (ix1 (j 3))) := by
  rw [val_main_v3_apply, val_main_v0_apply, val_main_v2_apply, val_main_v1_apply]
  unfold proj
  have e1 : ∀ k, lidx_main_v0 j k = ix4 (j 0) (j 1) (j 2) k := fun k => funext fun a => by
    match a with
    | ⟨0, _⟩ => rfl
    | ⟨1, _⟩ => rfl
    | ⟨2, _⟩ => rfl
    | ⟨3, _⟩ => rfl
  have e2 : ∀ k, ridx_main_v0 j k = ix2 (j 3) k := fun k => funext fun a => by
    match a with
    | ⟨0, _⟩ => rfl
    | ⟨1, _⟩ => rfl
  have e3 : idx_main_v1 (idx_main_v2 j) = ix1 (j 3) := funext fun a => by
    match a with
    | ⟨0, _⟩ => rfl
  simp only [e1, e2, e3]
  rfl

/-- A chunk's low-rank correction at an entry of the chunk. -/
theorem lora_stage (xa : (⟨S16x1280, .f32⟩ : BufTy).Contents (Elt Ideal)) (xb : (⟨S1280x16, .f32⟩ : BufTy).Contents (Elt Ideal))
    (i : S8x64x64x1280.Idx) :
    val_main_v8 (F := Ideal) x0 xa xb i
      = adapt (fun k => x0 (ix4 (i 0) (i 1) (i 2) k)) (fun s k => xa (ix2 s k)) (fun s => xb (ix2 (i 3) s)) := by
  rw [val_main_v8_apply, val_main_v6_apply, val_main_v7_apply, val_main_cst_apply]
  simp only [val_main_v5_apply]
  unfold adapt
  have e1 : ∀ s k, lidx_main_v5 (lidx_main_v6 i s) k = ix4 (i 0) (i 1) (i 2) k := fun s k => funext fun a => by
    match a with
    | ⟨0, _⟩ => rfl
    | ⟨1, _⟩ => rfl
    | ⟨2, _⟩ => rfl
    | ⟨3, _⟩ => rfl
  have e2 : ∀ s k, ridx_main_v5 (lidx_main_v6 i s) k = ix2 s k := fun s k => funext fun a => by
    match a with
    | ⟨0, _⟩ => rfl
    | ⟨1, _⟩ => rfl
  have e3 : ∀ s, ridx_main_v6 i s = ix2 (i 3) s := fun s => funext fun a => by
    match a with
    | ⟨0, _⟩ => rfl
    | ⟨1, _⟩ => rfl
  simp only [e1, e2, e3]
  rfl

/-- A chunk at position d, for the chunk cut at column offset `off`: the slice of the projection there plus the
    correction. `sl` is the slice of the projection the chunk adds to, read at the whole array's index `J`. -/
theorem chunk_stage (xa : (⟨S16x1280, .f32⟩ : BufTy).Contents (Elt Ideal)) (xb : (⟨S1280x16, .f32⟩ : BufTy).Contents (Elt Ideal))
    (sl : FVec Ideal S8x64x64x1280 .f32) (i0 : Fin 8) (i1 i2 : Fin 64) (o : Fin 3840) (d : Fin 1280)
    (hsl : sl (ix4 i0 i1 i2 d) = val_main_v3 (F := Ideal) x0 x1 x2 (ix4 i0 i1 i2 o)) :
    (addf (F := Ideal) sl (val_main_v8 (F := Ideal) x0 xa xb) : FVec Ideal S8x64x64x1280 .f32) (ix4 i0 i1 i2 d)
      = entry4 x0 x1 x2 xa xb i0 i1 i2 o d := by
  rw [addf_apply, hsl, base_stage, lora_stage]
  rfl

/-- The reference's result is `out4` of the arguments. -/
theorem ref_eq (x3 : (⟨S16x1280, .f32⟩ : BufTy).Contents (Elt Ideal)) (x4 : (⟨S1280x16, .f32⟩ : BufTy).Contents (Elt Ideal))
    (x5 : (⟨S16x1280, .f32⟩ : BufTy).Contents (Elt Ideal)) (x6 : (⟨S1280x16, .f32⟩ : BufTy).Contents (Elt Ideal))
    (x7 : (⟨S16x1280, .f32⟩ : BufTy).Contents (Elt Ideal)) (x8 : (⟨S1280x16, .f32⟩ : BufTy).Contents (Elt Ideal)) :
    val_main_v22 (F := Ideal) x0 x1 x2 x3 x4 x5 x6 x7 x8 = out4 x0 x1 x2 x3 x4 x5 x6 x7 x8 := by
  funext i
  have h3 : (i 3).val < 3840 := (i 3).isLt
  unfold val_main_v22 out4
  by_cases c1 : (i 3).val < 1280
  · rw [dif_pos c1]
    refine (concatenate_apply_piece 3 _ _ i 0 (by show 0 < 3; omega)
      S8x64x64x1280 _ rfl rfl 0 rfl (ix4 (i 0) (i 1) (i 2) ⟨(i 3).val, c1⟩) ?_ ?_).trans ?_
    · intro b hb
      match b with
      | ⟨0, _⟩ => rfl
      | ⟨1, _⟩ => rfl
      | ⟨2, _⟩ => rfl
      | ⟨3, _⟩ => exact absurd rfl hb
    · show 0 + (i 3).val = (i 3).val
      omega
    · refine chunk_stage x0 x1 x2 x3 x4 _ (i 0) (i 1) (i 2) (i 3) ⟨(i 3).val, c1⟩ ?_
      rw [val_main_v4_apply]
      refine congrArg _ (funext fun a => Fin.ext ?_)
      match a with
      | ⟨0, _⟩ => rfl
      | ⟨1, _⟩ => rfl
      | ⟨2, _⟩ => rfl
      | ⟨3, _⟩ => rfl
  · rw [dif_neg c1]
    by_cases c2 : (i 3).val < 2560
    · rw [dif_pos c2]
      refine (concatenate_apply_piece 3 _ _ i 1 (by show 1 < 3; omega)
        S8x64x64x1280 _ rfl rfl 1280 rfl (ix4 (i 0) (i 1) (i 2) ⟨(i 3).val - 1280, by omega⟩) ?_ ?_).trans ?_
      · intro b hb
        match b with
        | ⟨0, _⟩ => rfl
        | ⟨1, _⟩ => rfl
        | ⟨2, _⟩ => rfl
        | ⟨3, _⟩ => exact absurd rfl hb
      · show 1280 + ((i 3).val - 1280) = (i 3).val
        omega
      · refine chunk_stage x0 x1 x2 x5 x6 _ (i 0) (i 1) (i 2) (i 3) ⟨(i 3).val - 1280, by omega⟩ ?_
        rw [val_main_v10_apply]
        refine congrArg _ (funext fun a => Fin.ext ?_)
        match a with
        | ⟨0, _⟩ => rfl
        | ⟨1, _⟩ => rfl
        | ⟨2, _⟩ => rfl
        | ⟨3, _⟩ => show 1280 + ((i 3).val - 1280) = (i 3).val; omega
    · rw [dif_neg c2]
      refine (concatenate_apply_piece 3 _ _ i 2 (by show 2 < 3; omega)
        S8x64x64x1280 _ rfl rfl 2560 rfl (ix4 (i 0) (i 1) (i 2) ⟨(i 3).val - 2560, by omega⟩) ?_ ?_).trans ?_
      · intro b hb
        match b with
        | ⟨0, _⟩ => rfl
        | ⟨1, _⟩ => rfl
        | ⟨2, _⟩ => rfl
        | ⟨3, _⟩ => exact absurd rfl hb
      · show 2560 + ((i 3).val - 2560) = (i 3).val
        omega
      · refine chunk_stage x0 x1 x2 x7 x8 _ (i 0) (i 1) (i 2) (i 3) ⟨(i 3).val - 2560, by omega⟩ ?_
        rw [val_main_v16_apply]
        refine congrArg _ (funext fun a => Fin.ext ?_)
        match a with
        | ⟨0, _⟩ => rfl
        | ⟨1, _⟩ => rfl
        | ⟨2, _⟩ => rfl
        | ⟨3, _⟩ => show 2560 + ((i 3).val - 2560) = (i 3).val; omega

end Cert.ReferenceIdeal.RefValue

end
-- ==== Proof.lean ====
/- The proof of `Cert.Claim` (proofs.«111045_j25013889532113_1_alg».proof.Defs).

   The kernel computes a fused QKV projection with three low-rank corrections: on the rows of x flattened to
   [32768, 1280] it forms x · Wᵀ + b into the [256, 3840] output block of each of 128 row blocks, and then adds to each
   1280-wide chunk of the block ((x · Aᵀ) · Bᵀ) · 1 for the chunk's pair (A, B), reading the chunk back from the block it
   has just written. The reference computes x · Wᵀ + b on the [8, 64, 64, 3840] array, slices the three chunks, adds the
   same corrections and concatenates. Over the extended reals the conversions to bf16 are the identity and a matrix
   product into a zero accumulator is the plain sum over the contraction index, so both programs compute, entry by
   entry, the same sums of the same products in the same order (Proof/Spec.lean: `entry`); no algebraic law and no
   finiteness of the inputs is needed, only the bookkeeping of indices: the reshape of the rows, the transposes of the
   weights, the blocks of the grid, the chunk a column falls in (Proof/Layouts.lean).

   Modules: Spec (the entry), Layouts (the two arrangements and their equality), LibPlainMatmul (a plain matrix product
   and a row broadcast at an entry), KernelBlock (what one grid point leaves in its output block), KernelArray (the
   result array, the host lines around the region, the kernel's run read back), RefValue (the reference's result at an
   entry). The three frames are the generated ones; `preserves` is `True` (the ideal pass rewrote nothing). -/
import proofs.«111045_j25013889532113_1_alg».proof.Defs
import proofs.«111045_j25013889532113_1_alg».proof.Proof.Gen.Kernel
import proofs.«111045_j25013889532113_1_alg».proof.Proof.Gen.Kernel.Skeleton
import proofs.«111045_j25013889532113_1_alg».proof.Proof.Gen.Kernel.Launch
import proofs.«111045_j25013889532113_1_alg».proof.Proof.Gen.Kernel.Points
import proofs.«111045_j25013889532113_1_alg».proof.Proof.Gen.Kernel.Frame
import proofs.«111045_j25013889532113_1_alg».proof.Proof.Gen.KernelIdeal
import proofs.«111045_j25013889532113_1_alg».proof.Proof.Gen.KernelIdeal.Skeleton
import proofs.«111045_j25013889532113_1_alg».proof.Proof.Gen.KernelIdeal.Launch
import proofs.«111045_j25013889532113_1_alg».proof.Proof.Gen.KernelIdeal.Points
import proofs.«111045_j25013889532113_1_alg».proof.Proof.Gen.KernelIdeal.Frame
import proofs.«111045_j25013889532113_1_alg».proof.Proof.Gen.ReferenceIdeal
import proofs.«111045_j25013889532113_1_alg».proof.Proof.Gen.Pre_finite_inputs
import proofs.«111045_j25013889532113_1_alg».proof.Proof.Gen.ReferenceIdeal.Run
import proofs.«111045_j25013889532113_1_alg».proof.Proof.Gen.ReferenceIdeal.Read
import proofs.«111045_j25013889532113_1_alg».proof.Proof.KernelArray
import proofs.«111045_j25013889532113_1_alg».proof.Proof.RefValue
import Idealize.ShloMosaic.Adequacy
import Idealize.ShloMosaic.Init

noncomputable section

namespace Cert.Proof

open Idealize.ShloMosaic Idealize.SL.Sem Cert.LoraQkv

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `out4` of the arguments, and the arguments agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
